-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) (main_arg1 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  main_v8
-- ==== Kernel.lean ====
abbrev S65536x1024 : Shape := ⟨2, ![65536, 1024]⟩
abbrev S65536 : Shape := ⟨1, ![65536]⟩
abbrev S1024x1024 : Shape := ⟨2, ![1024, 1024]⟩
abbrev S1024 : Shape := ⟨1, ![1024]⟩

abbrev nBuf : Space → Nat
  | .hbm => 3
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  inb_S1024_S1024_0 : ∀ a, (![0] : Fin 1 → Nat) a + S1024.size a ≤ S1024.size a
  h_S1024 : 0 < S1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S65536.size a
  hwx0_2 : ∀ i : grid0.Coords, EltTy.bits .f32 = 32 ∨ (Rect.block (s := S65536) S1024.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S_ : Shape := ⟨0, ![]⟩
abbrev S65536 : Shape := ⟨1, ![65536]⟩
abbrev S65536x1 : Shape := ⟨2, ![65536, 1]⟩

abbrev nBuf : Space → Nat
  | .hbm => 25
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)

variable [Facts₀]

class Facts : Prop extends Facts₀ where

variable [Facts]
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.RowCosine.lean ====
/-
  The cosine of the angle between two rows, with each norm clamped below by a small positive number.

  For rows p, h of n real numbers and a clamp e > 0 write A = max (√(Σ p²)) e and B = max (√(Σ h²)) e. Both are real
  and at least e, so neither is zero. One program divides the inner product once, (Σ pₖ hₖ) / (A · B); the other
  normalises each row first and then sums, Σ (pₖ / A) · (hₖ / B). Over the reals these agree because the common factor
  1 / (A · B) comes out of the finite sum. On the extended reals the same computation goes through once every quantity
  is known to be a real: the squares and products of reals are reals, so are their finite sums, the square root of a
  non-negative real is a real, and the quotient by a non-zero real is the product with its reciprocal.
-/
import Idealize.ShloMosaic.PureOps.Ideal
import Idealize.ShloMosaic.PureOps.Ideal.Laws

noncomputable section

namespace RowCosine

open Idealize.ShloMosaic

/-! ## Reals inside the extended reals -/

/-- A finite sum of reals, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, read in the extended reals, is the larger of the readings. -/
theorem coe_max (a b : ℝ) : ((max a b : ℝ) : EReal) = max (a : EReal) (b : EReal) :=
  EReal.coe_strictMono.monotone.map_max

/-! ## The clamp -/

/-- The clamp's bit pattern (the single-precision number nearest 10⁻¹²) denotes a positive real. -/
theorem clamp_pos : ∃ e : ℝ, 0 < e ∧ Ideal.ofBits .f32 0x2B8CBCCC#32 = (e : EReal) := by
  refine ⟨_, ?_, by simp [Ideal.ofBits, Ideal.ieee, -EReal.coe_mul]; rfl⟩
  positivity

/-! ## The two forms -/

variable {n : ℕ}

/-- A row's Euclidean norm, clamped below by `ε`. -/
def clampNorm (ε : EReal) (x : Fin n → EReal) : EReal := max (Ideal.sqrt (∑ k, x k * x k)) ε

/-- The inner product divided once by the product of the clamped norms. -/
def divideOnce (ε : EReal) (p h : Fin n → EReal) : EReal :=
  Ideal.div (∑ k, p k * h k) (clampNorm ε p * clampNorm ε h)

/-- Each row normalised first, then the products summed, every sum started from an explicit zero. -/
def normaliseFirst (ε : EReal) (p h : Fin n → EReal) : EReal :=
  0 + ∑ k, Ideal.div (p k) (max (Ideal.sqrt (0 + ∑ j, p j * p j)) ε)
            * Ideal.div (h k) (max (Ideal.sqrt (0 + ∑ j, h j * h j)) ε)

/-- The clamped norm of a real row is the real `max (√(Σ x²)) e`. -/
theorem clampNorm_coe (e : ℝ) (x : Fin n → ℝ) :
    clampNorm (e : EReal) (fun k => (x k : EReal)) = ((max (Real.sqrt (∑ k, x k * x k)) e : ℝ) : EReal) := by
  unfold clampNorm
  have hs : (∑ k, (x k : EReal) * (x k : EReal)) = ((∑ k, x k * x k : ℝ) : EReal) := by
    rw [coe_sum]; exact Finset.sum_congr rfl fun k _ => (EReal.coe_mul _ _).symm
  rw [hs, Ideal.sqrt_coe, if_neg (not_lt.mpr (Finset.sum_nonneg fun k _ => mul_self_nonneg (x k))), coe_max]

/-- For real rows and a positive clamp the two forms agree. -/
theorem normaliseFirst_eq_divideOnce (e : ℝ) (he : 0 < e) (p h : Fin n → ℝ) :
    normaliseFirst (e : EReal) (fun k => (p k : EReal)) (fun k => (h k : EReal))
      = divideOnce (e : EReal) (fun k => (p k : EReal)) (fun k => (h k : EReal)) := by
  have hA : (0 : ℝ) < max (Real.sqrt (∑ k, p k * p k)) e := lt_max_of_lt_right he
  have hB : (0 : ℝ) < max (Real.sqrt (∑ k, h k * h k)) e := lt_max_of_lt_right he
  have nA := clampNorm_coe e p
  have nB := clampNorm_coe e h
  unfold clampNorm at nA nB
  unfold divideOnce normaliseFirst clampNorm
  simp only [zero_add]
  rw [nA, nB, ← EReal.coe_mul, Ideal.div_coe (mul_pos hA hB).ne']
  have hsum : (∑ k, (p k : EReal) * (h k : EReal)) = ((∑ k, p k * h k : ℝ) : EReal) := by
    rw [coe_sum]; exact Finset.sum_congr rfl fun k _ => (EReal.coe_mul _ _).symm
  rw [hsum, ← EReal.coe_mul]
  have hterm : ∀ k, Ideal.div (p k : EReal) ((max (Real.sqrt (∑ k, p k * p k)) e : ℝ) : EReal)
      * Ideal.div (h k : EReal) ((max (Real.sqrt (∑ k, h k * h k)) e : ℝ) : EReal)
      = ((p k * (1 / max (Real.sqrt (∑ k, p k * p k)) e) * (h k * (1 / max (Real.sqrt (∑ k, h k * h k)) e)) : ℝ) : EReal) := by
    intro k
    rw [Ideal.div_coe hA.ne', Ideal.div_coe hB.ne', ← EReal.coe_mul, ← EReal.coe_mul, ← EReal.coe_mul]
  rw [Finset.sum_congr rfl fun k _ => hterm k, ← coe_sum]
  congr 1
  rw [Finset.sum_mul]
  refine Finset.sum_congr rfl fun k _ => ?_
  field_simp

end RowCosine

end
-- ==== Proof.CosineSpec.lean ====
/-
  What both programs compute, as one function of the two argument matrices.

  The arguments are two 65536 × 1024 matrices. Entry r of the result depends only on row r of each: it is the inner
  product of the two rows divided by the product of their norms, each norm clamped below by the clamp constant. The
  second function below is the same quantity written the other way round (each row normalised first, then the
  products summed); when every entry of both matrices is a real number the two functions are equal, row by row.
-/
import proofs.«120725_j76785425318088_1_alg».proof.Proof.RowCosine
import Idealize.ShloMosaic.Lib.ValueIdx

noncomputable section

namespace CosineSpec

open Idealize.ShloMosaic Idealize.ShloMosaic.ValueIdx

/-- A 65536 × 1024 matrix of extended reals. -/
abbrev Mat : Type := (⟨2, ![65536, 1024]⟩ : Shape).Idx → EReal

/-- The clamp: what the bit pattern shared by both programs denotes. -/
abbrev clamp : EReal := Ideal.ofBits .f32 0x2B8CBCCC#32

/-- Row `r` of a matrix, as a function of the column. -/
def row (x : Mat) (r : Fin 65536) : Fin 1024 → EReal := fun k => x (ix2 r k)

/-- Entry `r`: the rows' inner product divided once by the product of their clamped norms. -/
def rowwise (x0 x1 : Mat) : (⟨1, ![65536]⟩ : Shape).Idx → EReal :=
  fun i => RowCosine.divideOnce clamp (row x0 (i 0)) (row x1 (i 0))

/-- Entry `r`: the rows normalised first, then their products summed. -/
def rowwiseNormalised (x0 x1 : Mat) : (⟨1, ![65536]⟩ : Shape).Idx → EReal :=
  fun i => RowCosine.normaliseFirst clamp (row x0 (i 0)) (row x1 (i 0))

/-- On matrices of reals the two functions are one. -/
theorem rowwiseNormalised_eq (x0 x1 : Mat) (h0 : ∀ j, ∃ r : ℝ, x0 j = (r : EReal)) (h1 : ∀ j, ∃ r : ℝ, x1 j = (r : EReal)) :
    rowwiseNormalised x0 x1 = rowwise x0 x1 := by
  obtain ⟨e, he, hc⟩ := RowCosine.clamp_pos
  choose p hp using h0
  choose h hh using h1
  funext i
  have e0 : row x0 (i 0) = fun k => ((p (ix2 (i 0) k) : ℝ) : EReal) := funext fun k => hp _
  have e1 : row x1 (i 0) = fun k => ((h (ix2 (i 0) k) : ℝ) : EReal) := funext fun k => hh _
  show RowCosine.normaliseFirst clamp (row x0 (i 0)) (row x1 (i 0)) = RowCosine.divideOnce clamp (row x0 (i 0)) (row x1 (i 0))
  rw [e0, e1, show clamp = (e : EReal) from hc]
  exact RowCosine.normaliseFirst_eq_divideOnce e he _ _

end CosineSpec

end
-- ==== Proof.RowBlock.lean ====
/-
  One block of the kernel's output, row by row.

  At a grid point the body loads a 1024 × 1024 block of each argument and stores 1024 numbers. Entry q of what it stores
  uses only row q of each block: the row sum of the products, divided by the product of the two clamped row norms. This
  is the divide-once form of the cosine, at the blocks' rows.
-/
import proofs.«120725_j76785425318088_1_alg».proof.Proof.Gen.KernelIdeal.Value
import proofs.«120725_j76785425318088_1_alg».proof.Proof.LibRowOps
import proofs.«120725_j76785425318088_1_alg».proof.Proof.CosineSpec

noncomputable section

namespace Cert.KernelIdeal.RowValue

open Cert.KernelIdeal Cert.KernelIdeal.Gen Idealize.ShloMosaic Idealize.ShloMosaic.TcCoe Idealize.ShloMosaic.ValueIdx

/-- The sum along row `q` of a 1024 × 1024 block, from the zero word. -/
theorem row_sum (v : FVec Ideal S1024x1024 .f32) (h : S1024x1024.Reduces [1] S1024) (hφ : FKind.Formats .f32)
    (hacc : (0x00000000#32 : BitVec 32) = 0x00000000#32) (q : Fin 1024) :
    multiReduction (F := Ideal) .add [1] S1024 v 0x00000000#32 h hφ hacc (ix1 q) = ∑ k : Fin 1024, v (ix2 q k) :=
  RowOps.multiReduction_add_row v 0x00000000#32 h hφ hacc q

/-- Entry `q` of the stored block is the divide-once cosine of rows `q` of the two loaded blocks. -/
theorem block_row (P0 P1 : Vec Ideal S1024x1024 .f32) (q : Fin 1024) :
    Cert.KernelIdeal.Value.E2 (F := Ideal) P0 P1 (ix1 q)
      = RowCosine.divideOnce CosineSpec.clamp (fun k => P0 (ix2 q k)) (fun k => P1 (ix2 q k)) := by
  have h0 : Cert.KernelIdeal.Value.ix2_0 (ix1 q) = ix1 q := funext fun a => Fin.ext (by match a with | ⟨0, _⟩ => rfl)
  have h1 : Cert.KernelIdeal.Value.ix2_1 (ix1 q) = ix1 q := funext fun a => Fin.ext (by match a with | ⟨0, _⟩ => rfl)
  have h2 : Cert.KernelIdeal.Value.ix2_2 (ix1 q) = ix1 q := funext fun a => Fin.ext (by match a with | ⟨0, _⟩ => rfl)
  have s01 := row_sum (mulf (F := Ideal) P0 P1) reduces_S1024x1024_S1024 (.inl rfl) rfl q
  have s00 := row_sum (mulf (F := Ideal) P0 P0) reduces_S1024x1024_S1024 (.inl rfl) rfl q
  have s11 := row_sum (mulf (F := Ideal) P1 P1) reduces_S1024x1024_S1024 (.inl rfl) rfl q
  show FloatOps.divf (F := Ideal) ((multiReduction (F := Ideal) .add [1] S1024 (mulf (F := Ideal) P0 P1) 0x00000000#32 reduces_S1024x1024_S1024 (.inl rfl) rfl) (Cert.KernelIdeal.Value.ix2_0 (ix1 q)))
      (FloatOps.mulf (FloatOps.maximumf (FloatOps.sqrt ((multiReduction (F := Ideal) .add [1] S1024 (mulf (F := Ideal) P0 P0) 0x00000000#32 reduces_S1024x1024_S1024 (.inl rfl) rfl) (Cert.KernelIdeal.Value.ix2_1 (ix1 q)))) (Scalar.ofBits .f32 0x2B8CBCCC#32))
        (FloatOps.maximumf (FloatOps.sqrt ((multiReduction (F := Ideal) .add [1] S1024 (mulf (F := Ideal) P1 P1) 0x00000000#32 reduces_S1024x1024_S1024 (.inl rfl) rfl) (Cert.KernelIdeal.Value.ix2_2 (ix1 q)))) (Scalar.ofBits .f32 0x2B8CBCCC#32))) = _
  rw [h0, h1, h2, s01, s00, s11]
  rfl

end Cert.KernelIdeal.RowValue

end
-- ==== Proof.KernelValue.lean ====
/-
  The kernel's whole result array.

  The grid has 64 points. Point t fetches rows 1024·t … 1024·t + 1023 of each argument (all 1024 columns) and writes
  back entries 1024·t … 1024·t + 1023 of the result. Entry q of what point t writes is the divide-once cosine of rows
  q of its two blocks, that is of rows 1024·t + q of the two arguments; so point t writes block t of the row-wise
  function of the arguments. The 64 blocks cover all 65536 entries (entry i lies in block i / 1024), hence the result
  array ends holding that function.
-/
import proofs.«120725_j76785425318088_1_alg».proof.Proof.RowBlock
import Idealize.ShloMosaic.Lib.Pipeline.Value

noncomputable section

namespace Cert.KernelIdeal.RowValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The first argument's block at a point, at its literal type. -/
abbrev pblk (c : Dev nD) (t : Fin cfg0.N) : Vec Ideal S1024x1024 .f32 := iblk m c 0 t
/-- The second argument's block at a point, at its literal type. -/
abbrev hblk (c : Dev nD) (t : Fin cfg0.N) : Vec Ideal S1024x1024 .f32 := iblk m c 1 t

theorem zero_offsets : (![0, 0] : Fin 2 → Nat) = fun _ => 0 := funext fun a => by fin_cases a <;> rfl

/-- The body's result for the output window is the row formula of the two loaded blocks. -/
theorem out_eq (x0 x1 : Vec Ideal S1024x1024 .f32) : out0_2 x0 x1 = Cert.KernelIdeal.Value.E2 x0 x1 := by
  unfold out0_2
  funext y
  rw [Cert.KernelIdeal.Value.canon2_eq]
  simp only [View.ld_unit_zero (S := S1024x1024) zero_offsets]

/-- The index maps over the 64 points: each input window's block index is (t, 0), the output's is t. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val :=
  (by decide +kernel : ∀ t : Fin grid0.N, _)

/-- Row `q` of the first argument's block at point `t` is row `1024·t + q` of the first argument. -/
theorem pblk_row (c : Dev nD) (t : Fin cfg0.N) (q : Fin 1024) (i : S65536.Idx) (hi : (i 0).val = t.val * 1024 + q.val) :
    (fun k : Fin 1024 => pblk m c t (ix2 q k)) = CosineSpec.row (V m c main_arg0) (i 0) := by
  obtain ⟨e0, e1, -, -, -⟩ := idx_facts t
  funext k
  show V m c main_arg0 (((cfg0.win 0).blk t).view.emb (ix2 q k)) = V m c main_arg0 (ix2 (i 0) k)
  refine congrArg _ (funext fun a => Fin.ext ?_)
  match a with
  | ⟨0, _⟩ => show win0_0.index t (0 : Fin 2) * 1024 + 1 * q.val = (i 0).val; omega
  | ⟨1, _⟩ => show win0_0.index t (1 : Fin 2) * 1024 + 1 * k.val = k.val; omega

/-- Row `q` of the second argument's block at point `t` is row `1024·t + q` of the second argument. -/
theorem hblk_row (c : Dev nD) (t : Fin cfg0.N) (q : Fin 1024) (i : S65536.Idx) (hi : (i 0).val = t.val * 1024 + q.val) :
    (fun k : Fin 1024 => hblk m c t (ix2 q k)) = CosineSpec.row (V m c main_arg1) (i 0) := by
  obtain ⟨-, -, e0, e1, -⟩ := idx_facts t
  funext k
  show V m c main_arg1 (((cfg0.win 1).blk t).view.emb (ix2 q k)) = V m c main_arg1 (ix2 (i 0) k)
  refine congrArg _ (funext fun a => Fin.ext ?_)
  match a with
  | ⟨0, _⟩ => show win0_1.index t (0 : Fin 2) * 1024 + 1 * q.val = (i 0).val; omega
  | ⟨1, _⟩ => show win0_1.index t (1 : Fin 2) * 1024 + 1 * k.val = k.val; omega

/-- What point `t` writes back is block `t` of the row-wise function of the two arguments. -/
theorem flushed_eq (c : Dev nD) (t : Fin cfg0.N) :
    (dats m 0 c).flushed 2 t
      = ((cfg0.win 2).blk t).view.read (Elt Ideal) (CosineSpec.rowwise (V m c main_arg0) (V m c main_arg1)) := by
  rw [Cert.KernelIdeal.Value.flushed2]
  obtain ⟨-, -, -, -, e2⟩ := idx_facts t
  refine funext fun (j : S1024.Idx) => ?_
  obtain ⟨q, rfl⟩ : ∃ q : Fin 1024, j = ix1 q := ⟨j 0, eq_ix1 j⟩
  show out0_2 (pblk m c t) (hblk m c t) (ix1 q)
      = CosineSpec.rowwise (V m c main_arg0) (V m c main_arg1) (((cfg0.win 2).blk t).view.emb (ix1 q))
  have hi : ((((cfg0.win 2).blk t).view.emb (ix1 q) : S65536.Idx) 0).val = t.val * 1024 + q.val := by
    show win0_2.index t (0 : Fin 1) * 1024 + 1 * q.val = _
    omega
  rw [out_eq, block_row]
  show _ = RowCosine.divideOnce CosineSpec.clamp (CosineSpec.row (V m c main_arg0) _) (CosineSpec.row (V m c main_arg1) _)
  rw [pblk_row m c t q _ hi, hblk_row m c t q _ hi]

/-- An entry of the result is in point `t`'s block iff it is one of the 1024 entries from `1024·t` on. -/
theorem mem_blk (t : Fin cfg0.N) (i : S65536.Idx) :
    i ∈ ((cfg0.win 2).blk t).view.set ↔ ∀ a : Fin 1, win0_2.index t a * S1024.size a ≤ (i a).val ∧ (i a).val < win0_2.index t a * S1024.size a + S1024.size a := by
  show i ∈ ((View.whole main_v0).slice (win0_2.rect t)).set ↔ _
  rw [View.set_slice_whole, Rect.mem_set_unit]
  exact Iff.rfl

/-- Every entry of the result is in some point's block: entry `i` in block `i / 1024`. -/
theorem cover (i : S65536.Idx) : ∃ t : Fin cfg0.N, (cfg0.win 2).flush t = true ∧ i ∈ ((cfg0.win 2).blk t).view.set := by
  have hi : (i 0).val < 65536 := (i 0).isLt
  have hN : grid0.N = 64 := N_0
  have hlt : (i 0).val / 1024 < cfg0.N := by show _ < grid0.N; omega
  have e2 : win0_2.index ⟨(i 0).val / 1024, hlt⟩ (0 : Fin 1) = (i 0).val / 1024 := (idx_facts ⟨(i 0).val / 1024, hlt⟩).2.2.2.2
  refine ⟨⟨(i 0).val / 1024, hlt⟩, flush0_2 _, ?_⟩
  rw [mem_blk]
  intro a
  match a with
  | ⟨0, _⟩ =>
    show win0_2.index ⟨(i 0).val / 1024, hlt⟩ (0 : Fin 1) * 1024 ≤ (i 0).val ∧ (i 0).val < win0_2.index ⟨(i 0).val / 1024, hlt⟩ (0 : Fin 1) * 1024 + 1024
    omega

/-- After the run the result array holds the row-wise function of the two arguments. -/
theorem final (c : Dev nD) :
    (dats m 0 c).arrAt 2 cfg0.N
      = CosineSpec.rowwise (m ((c : Thread nD τ).loc main_arg0)) (m ((c : Thread nD τ).loc main_arg1)) :=
  (dats m 0 c).arrAt_eq_of_cover 2 (CosineSpec.rowwise (V m c main_arg0) (V m c main_arg1))
    (fun t _ => flushed_eq m c t) cover

/-- The kernel's run: the result array at the row-wise function of the arguments, the arguments unchanged. -/
theorem run : θ_run defs (onTc (τ := τ) (main (F := Ideal))) ⟨m, fun _ => 0, ρ⟩ fun r => ∀ c : Dev nD,
      r.2.mem ((c : Thread nD τ).loc main_v0)
        = CosineSpec.rowwise (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.RowValue

end
-- ==== Proof.RefValue.lean ====
/-
  The reference program computes the normalise-first form.

  Read one operation at a time, entry r of the reference's result is the sum over the columns k of
  (x0[r,k] / d0[r]) · (x1[r,k] / d1[r]), where d[r] is the column of clamped row norms broadcast back over the row:
  the square root of the row's sum of squares, then the maximum with the clamp. Every sum starts from the zero word.
-/
import proofs.«120725_j76785425318088_1_alg».proof.Proof.Gen.ReferenceIdeal.Read
import proofs.«120725_j76785425318088_1_alg».proof.Proof.CosineSpec

noncomputable section

namespace Cert.ReferenceIdeal.RefValue

open Cert.ReferenceIdeal Cert.ReferenceIdeal.Read Idealize.ShloMosaic Idealize.ShloMosaic.ValueIdx

/-- The first argument's broadcast denominator at (r, k): the clamped norm of row r. -/
theorem denom0 (x0 : (⟨S65536x1024, .f32⟩ : BufTy).Contents (Elt Ideal)) (r : Fin 65536) (k : Fin 1024) :
    val_main_v6 (F := Ideal) x0 (ix2 r k)
      = max (Ideal.sqrt (0 + ∑ j : Fin 1024, x0 (ix2 r j) * x0 (ix2 r j))) CosineSpec.clamp := by
  have hi : ∀ j : Fin 1024, idx_main_v1 (idx_main_v2 (idx_main_v6 (ix2 r k))) j = ix2 r j := fun j =>
    funext fun a => Fin.ext (by match a with | ⟨0, _⟩ => rfl | ⟨1, _⟩ => rfl)
  rw [val_main_v6_apply, val_main_v5_apply, val_main_v3_apply, val_main_v2_apply, val_main_v1_apply, val_main_v4_apply,
    val_main_cst_0_apply, val_main_cst_apply]
  simp only [hi, val_main_v0_apply, Ideal.maximumf_def, Ideal.hostUnary_sqrt_def, Ideal.ofBits_def, Ideal.ofBits_zero_f32,
    Ideal.mulf_def]

/-- The second argument's broadcast denominator at (r, k): the clamped norm of row r. -/
theorem denom1 (x1 : (⟨S65536x1024, .f32⟩ : BufTy).Contents (Elt Ideal)) (r : Fin 65536) (k : Fin 1024) :
    val_main_v14 (F := Ideal) x1 (ix2 r k)
      = max (Ideal.sqrt (0 + ∑ j : Fin 1024, x1 (ix2 r j) * x1 (ix2 r j))) CosineSpec.clamp := by
  have hi : ∀ j : Fin 1024, idx_main_v9 (idx_main_v10 (idx_main_v14 (ix2 r k))) j = ix2 r j := fun j =>
    funext fun a => Fin.ext (by match a with | ⟨0, _⟩ => rfl | ⟨1, _⟩ => rfl)
  rw [val_main_v14_apply, val_main_v13_apply, val_main_v11_apply, val_main_v10_apply, val_main_v9_apply, val_main_v12_apply,
    val_main_cst_2_apply, val_main_cst_1_apply]
  simp only [hi, val_main_v8_apply, Ideal.maximumf_def, Ideal.hostUnary_sqrt_def, Ideal.ofBits_def, Ideal.ofBits_zero_f32,
    Ideal.mulf_def]

/-- The reference's result is the normalise-first function of its two arguments. -/
theorem result_eq (x0 x1 : (⟨S65536x1024, .f32⟩ : BufTy).Contents (Elt Ideal)) :
    val_main_v17 (F := Ideal) x0 x1 = CosineSpec.rowwiseNormalised x0 x1 := by
  funext i
  obtain ⟨r, rfl⟩ : ∃ r : Fin 65536, i = ix1 r := ⟨i 0, eq_ix1 i⟩
  have hi : ∀ k : Fin 1024, idx_main_v17 (ix1 r) k = ix2 r k := fun k =>
    funext fun a => Fin.ext (by match a with | ⟨0, _⟩ => rfl | ⟨1, _⟩ => rfl)
  rw [val_main_v17_apply, val_main_cst_3_apply]
  simp only [hi, val_main_v16_apply, val_main_v7_apply, val_main_v15_apply, denom0, denom1, Ideal.hostDivf_def,
    Ideal.mulf_def, Ideal.ofBits_def, Ideal.ofBits_zero_f32]
  rfl

end Cert.ReferenceIdeal.RefValue

end
-- ==== Proof.FiniteInputs.lean ====
/-
  Finite inputs are real numbers.

  The precondition says, of each argument, that every entry's absolute value is below the positive infinity. On the
  extended reals the absolute value of either infinity is the positive infinity, which is not below itself; so each
  entry is neither infinity, that is, it is a real number.
-/
import proofs.«120725_j76785425318088_1_alg».proof.Pre_finite_inputs
import Idealize.ShloMosaic.Lib.ReduceAll
import Idealize.ShloMosaic.Lib.ValueIdx
import Idealize.ShloMosaic.PureOps.Ideal.Laws

noncomputable section

namespace FiniteInputs

open Idealize.ShloMosaic

/-- The pattern of the positive infinity denotes the top element. -/
theorem inf_word : Ideal.ofBits .f32 0x7F800000#32 = ⊤ := by simp [Ideal.ofBits, Ideal.ieee]

/-- An extended real whose absolute value is below the top element is a real. -/
theorem real_of_abs_lt_top (x : EReal) (h : max x (-x) < ⊤) : ∃ r : ℝ, x = (r : EReal) := by
  induction x using EReal.rec with
  | bot => simp at h
  | coe r => exact ⟨r, rfl⟩
  | top => simp at h

/-- One comparison of the precondition, at an entry: the entry is a real. -/
theorem real_of_cmp (x : EReal) (h : FloatOps.cmpf (F := Ideal) (φ := .f32) .olt (FloatOps.hostAbsf x) (Ideal.ofBits .f32 0x7F800000#32) = 1#1) :
    ∃ r : ℝ, x = (r : EReal) := by
  refine real_of_abs_lt_top x ?_
  rw [inf_word] at h
  by_contra hn
  have : Ideal.cmp .olt (max x (-x)) ⊤ = 0#1 := by simp [Ideal.cmp, hn]
  rw [show FloatOps.cmpf (F := Ideal) (φ := .f32) .olt (FloatOps.hostAbsf x) ⊤ = Ideal.cmp .olt (max x (-x)) ⊤ from rfl, this] at h
  exact absurd h (by decide)

/-- Under the precondition every entry of both arguments is a real. -/
theorem real_of_pre [Cert.Pre_finite_inputs.Facts] (x0 x1 : FVec Ideal Cert.Pre_finite_inputs.S65536x1024 .f32)
    (h : Cert.Pre_finite_inputs.fn (F := Ideal) x0 x1 = fun _ => 1#1) :
    (∀ j, ∃ r : ℝ, x0 j = (r : EReal)) ∧ (∀ j, ∃ r : ℝ, x1 j = (r : EReal)) := by
  have h0 := congrFun h ValueIdx.ix0
  dsimp only [Cert.Pre_finite_inputs.fn] at h0
  obtain ⟨ha, hb⟩ := IntOp.andi_eq_one.1 h0
  haveI : Subsingleton Cert.Pre_finite_inputs.S_.Idx := ⟨fun a b => funext fun d => d.elim0⟩
  exact ⟨fun j => real_of_cmp (x0 j) (Host.reduce_andi_all _ _ _ _ _ ha j),
    fun j => real_of_cmp (x1 j) (Host.reduce_andi_all _ _ _ _ _ hb j)⟩

end FiniteInputs

end
-- ==== Proof.lean ====
/-
  Row-wise cosine similarity of two 65536 × 1024 matrices, with each row norm clamped below by a small positive
  constant: the kernel against the reference, over the extended reals.

  For row r write p, h for the two rows, A = max (√(Σ p²)) ε and B = max (√(Σ h²)) ε. The kernel, one block of 1024
  rows per grid point, stores (Σ pₖ hₖ) / (A · B) at entry r. The reference normalises each matrix first, p / A and h / B
  with the norms broadcast back over the rows, and then sums the products along each row: Σ (pₖ / A) · (hₖ / B).
  Under the precondition every entry is a real number, so the sums of squares are non-negative reals, their square
  roots are reals, and A, B ≥ ε > 0 are non-zero reals; dividing by a non-zero real is multiplying by its reciprocal,
  and the common factor 1 / (A · B) comes out of the finite sum. Hence the two results agree entry by entry.

  The modules: the law for one pair of rows (RowCosine), the two whole-array functions and their equality on real
  matrices (CosineSpec), the reference read operation by operation (RefValue), one stored block as the row formula
  (RowBlock), the 64 blocks assembled into the result array (KernelValue), and the precondition read as "every entry is
  a real" (FiniteInputs). The idealization pass rewrote no operation of the kernel, so the preservation claim has no conjunct to prove.
-/
import proofs.«120725_j76785425318088_1_alg».proof.Defs
import proofs.«120725_j76785425318088_1_alg».proof.Proof.Gen.Kernel
import proofs.«120725_j76785425318088_1_alg».proof.Proof.Gen.Kernel.Skeleton
import proofs.«120725_j76785425318088_1_alg».proof.Proof.Gen.Kernel.Launch
import proofs.«120725_j76785425318088_1_alg».proof.Proof.Gen.Kernel.Points
import proofs.«120725_j76785425318088_1_alg».proof.Proof.Gen.Kernel.Frame
import proofs.«120725_j76785425318088_1_alg».proof.Proof.Gen.KernelIdeal
import proofs.«120725_j76785425318088_1_alg».proof.Proof.Gen.KernelIdeal.Skeleton
import proofs.«120725_j76785425318088_1_alg».proof.Proof.Gen.KernelIdeal.Launch
import proofs.«120725_j76785425318088_1_alg».proof.Proof.Gen.KernelIdeal.Points
import proofs.«120725_j76785425318088_1_alg».proof.Proof.Gen.KernelIdeal.Frame
import proofs.«120725_j76785425318088_1_alg».proof.Proof.Gen.ReferenceIdeal
import proofs.«120725_j76785425318088_1_alg».proof.Proof.Gen.Pre_finite_inputs
import proofs.«120725_j76785425318088_1_alg».proof.Proof.Gen.KernelIdeal.Value
import proofs.«120725_j76785425318088_1_alg».proof.Proof.Gen.ReferenceIdeal.Run
import proofs.«120725_j76785425318088_1_alg».proof.Proof.Gen.ReferenceIdeal.Read
import proofs.«120725_j76785425318088_1_alg».proof.Proof.KernelValue
import proofs.«120725_j76785425318088_1_alg».proof.Proof.RefValue
import proofs.«120725_j76785425318088_1_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, with what it computes dropped: it ends and leaves its arguments as they were. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the divide-once cosine of the arguments' rows: the kernel by its blocks, the reference
    because its normalise-first form equals it on matrices of reals, which the precondition provides. -/
theorem algebraic : Cert.algebraic_KernelIdeal_ReferenceIdeal := by
  intro m ρ m' ρ' hpre hagree
  refine ⟨fun c => CosineSpec.rowwise (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  obtain ⟨real0, real1⟩ := FiniteInputs.real_of_pre _ _ (hpre c)
  rw [Cert.ReferenceIdeal.Read.val_main_v17_eq, Cert.ReferenceIdeal.RefValue.result_eq, (hagree c).1, (hagree c).2]
  exact CosineSpec.rowwiseNormalised_eq _ _ real0 real1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
